-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x1024x256 : Shape := ⟨3, ![8, 1024, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8x2048x256 .f32) (main_arg1 : FVec F S8x1024x256 .f32) (main_arg2 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8x2048x256 : Shape := ⟨3, ![8, 2048, 256]⟩
abbrev S8x1024x256 : Shape := ⟨3, ![8, 1024, 256]⟩
abbrev S256x256 : Shape := ⟨2, ![256, 256]⟩
abbrev S8x2048x1024 : Shape := ⟨3, ![8, 2048, 1024]⟩
abbrev S1x512x256 : Shape := ⟨3, ![1, 512, 256]⟩
abbrev S1x1024x256 : Shape := ⟨3, ![1, 1024, 256]⟩
abbrev S1x512x1024 : Shape := ⟨3, ![1, 512, 1024]⟩
abbrev S512x256 : Shape := ⟨2, ![512, 256]⟩
abbrev S1024x256 : Shape := ⟨2, ![1024, 256]⟩
abbrev S256x1024 : Shape := ⟨2, ![256, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S256x256, .f32⟩
  | .hbm, ⟨3, _⟩ => ⟨S8x2048x256, .f32⟩
  | .hbm, ⟨4, _⟩ => ⟨S8x2048x1024, .f32⟩
  | .local _ .vmem, ⟨0, _⟩ => ⟨S1x512x256, .f32⟩
  | .local _ .vmem, ⟨1, _⟩ => ⟨S1x512x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x512x256, .f32⟩
  | .local _ .vmem, ⟨6, _⟩ => ⟨S1x512x256, .f32⟩
  | .local _ .vmem, ⟨7, _⟩ => ⟨S1x512x1024, .f32⟩
  | .local _ .vmem, ⟨8, _⟩ => ⟨S1x512x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  transposes_S256x256_p1_0_S256x256 : S256x256.Transposes [1, 0] S256x256
  shapeCasts_S512x256_S1x512x256 : S512x256.ShapeCasts S1x512x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x256_S256x256_S512x256_1_0_0_1_n_n_wf : DotDims.WF S512x256 S256x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x256.size a
  hwx0_1 : ∀ i : grid0.Coords, EltTy.bits .f32 = 32 ∨ (Rect.block (s := S8x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x2048x256.size a
  hwx0_3 : ∀ i : grid0.Coords, EltTy.bits .f32 = 32 ∨ (Rect.block (s := S8x2048x256) S1x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x1024x256 : Shape := ⟨3, ![8, 1024, 256]⟩
abbrev S256x256 : Shape := ⟨2, ![256, 256]⟩
abbrev S_ : Shape := ⟨0, ![]⟩
abbrev S8x2048x1024 : Shape := ⟨3, ![8, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x1024x256, .f32⟩
  | .hbm, ⟨2, _⟩ => ⟨S256x256, .f32⟩
  | .hbm, ⟨3, _⟩ => ⟨S8x2048x256, .f32⟩
  | .hbm, ⟨4, _⟩ => ⟨S_, .f32⟩
  | .hbm, ⟨5, _⟩ => ⟨S8x2048x256, .f32⟩
  | .hbm, ⟨6, _⟩ => ⟨S8x2048x256, .f32⟩
  | .hbm, ⟨7, _⟩ => ⟨S8x2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x256 : S_.BroadcastsInDim S8x2048x256 (![] : Fin 0 → Fin S8x2048x256.rank)
  dot_S8x2048x256_S256x256_S8x2048x256_2_1_01_0_n_n_wf : DotDims.WF S8x2048x256 S256x256 S8x2048x256 [2] [1] [0, 1] [0] [] []
  dot_S8x2048x256_S8x1024x256_S8x2048x1024_2_2_1_1_0_0_wf : DotDims.WF S8x2048x256 S8x1024x256 S8x2048x1024 [2] [2] [1] [1] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x1024x256_S8x2048x1024_2_2_1_1_0_0 : DotDims S8x2048x256 S8x1024x256 S8x2048x1024 where
  lhsContracting := [2]
  rhsContracting := [2]
  lhsNonContracting := [1]
  rhsNonContracting := [1]
  lhsBatch := [0]
  rhsBatch := [0]
  wf := dot_S8x2048x256_S8x1024x256_S8x2048x1024_2_2_1_1_0_0_wf

class Facts : Prop extends Facts₀ where

variable [Facts]
-- ==== Proof.Payload.lean ====
/-
  What the kernel body computes from the blocks it loads, read at an index, over the extended reals.

  The body loads a block X : [1, 512, 256] of the sequences, the whole weight W : [256, 256] and a block
  M : [1, 1024, 256] of the memories. Dropping the unit axis, transposing W and M, and changing float format move
  values without changing them, and a matrix product into a zero accumulator read at (p, q) is the sum over the one
  contracted coordinate of the operands' products. So

    first stored value  at (p, h) = max (sum over i of X[0, p, i] * W[h, i]) 0
    second stored value at (p, r) = sum over h of (first stored value at (p, h)) * M[0, r, h].
-/
import proofs.«179822_j13563506721326_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-! ## The first product's operand indices: rows times the transposed weight -/

theorem lhs_proj_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_proj_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_proj_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_proj_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The first product into a zero accumulator, at (p, q): the sum over i of A[p, i] * B[i, q]. -/
theorem proj_apply (A : FVec Ideal S512x256 .bf16) (B : FVec Ideal S256x256 .bf16) (p : Fin 512) (q : Fin 256) :
    matmul dot_S512x256_S256x256_S512x256_1_0_0_1_n_n none A B (constant S512x256 .f32 0x00000000#32) (ix2 p q)
      = ∑ k : Fin 256, A (ix2 p k) * B (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhs_proj_0 _ _).trans hk
    | ⟨1, _⟩ => exact rhs_proj_1 _ _)
  rw [el, er]

/-! ## The second product's operand indices: keys times the transposed memory block -/

theorem lhs_score_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_score_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_score_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_score_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The second product into a zero accumulator, at (p, r): the sum over h of A[p, h] * B[h, r]. -/
theorem score_apply (A : FVec Ideal S512x256 .bf16) (B : FVec Ideal S256x1024 .bf16) (p : Fin 512) (r : Fin 1024) :
    matmul dot_S512x256_S256x1024_S512x1024_1_0_0_1_n_n none A B (constant S512x1024 .f32 0x00000000#32) (ix2 p r)
      = ∑ k : Fin 256, A (ix2 p k) * B (ix2 k r) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p r) ((contrEquiv1 dot_S512x256_S256x1024_S512x1024_1_0_0_1_n_n 256 rfl rfl).symm k) = ix2 p k := funext fun a => Fin.ext (by
    match a with
    | ⟨0, _⟩ => exact lhs_score_0 _ _
    | ⟨1, _⟩ => exact (lhs_score_1 _ _).trans hk)
  have er : dot_S512x256_S256x1024_S512x1024_1_0_0_1_n_n.rhsIdx (ix2 p r) ((contrEquiv1 dot_S512x256_S256x1024_S512x1024_1_0_0_1_n_n 256 rfl rfl).symm k) = ix2 k r := funext fun a => Fin.ext (by
    match a with
    | ⟨0, _⟩ => exact (rhs_score_0 _ _).trans hk
    | ⟨1, _⟩ => exact rhs_score_1 _ _)
  rw [el, er]

/-! ## The layout operations at an index -/

/-- Dropping the sequence block's unit axis: (p, i) reads (0, p, i). -/
theorem seq_rows_apply (X : Vec Ideal S1x512x256 .f32) (p : Fin 512) (i : Fin 256) :
    shapeCast S512x256 X shapeCasts_S1x512x256_S512x256 (ix2 p i) = X (ix3 0 p i) :=
  shapeCast_apply X shapeCasts_S1x512x256_S512x256 (ix2 p i) (ix3 0 p i) (by
    rw [Shape.rowMajor_val_two, Shape.rowMajor_val_three]
    show ((0 : Fin 1).val * 512 + p.val) * 256 + i.val = p.val * 256 + i.val
    simp)

/-- Dropping the memory block's unit axis: (r, h) reads (0, r, h). -/
theorem mem_rows_apply (M : Vec Ideal S1x1024x256 .f32) (r : Fin 1024) (h : Fin 256) :
    shapeCast S1024x256 M shapeCasts_S1x1024x256_S1024x256 (ix2 r h) = M (ix3 0 r h) :=
  shapeCast_apply M shapeCasts_S1x1024x256_S1024x256 (ix2 r h) (ix3 0 r h) (by
    rw [Shape.rowMajor_val_two, Shape.rowMajor_val_three]
    show ((0 : Fin 1).val * 1024 + r.val) * 256 + h.val = r.val * 256 + h.val
    simp)

/-- The transposed weight at (i, h) is the weight at (h, i). -/
theorem wgt_transpose_apply (Y : FVec Ideal S256x256 .bf16) (i h : Fin 256) :
    transpose S256x256 [1, 0] Y transposes_S256x256_p1_0_S256x256 (ix2 i h) = Y (ix2 h i) :=
  transpose_apply [1, 0] Y transposes_S256x256_p1_0_S256x256 (ix2 i h) (ix2 h i) (fun b => by
    match b with | ⟨0, _⟩ => rfl | ⟨1, _⟩ => rfl)

/-- The transposed memory rows at (h, r) are the memory rows at (r, h). -/
theorem mem_transpose_apply (Y : FVec Ideal S1024x256 .bf16) (h : Fin 256) (r : Fin 1024) :
    transpose S256x1024 [1, 0] Y transposes_S1024x256_p1_0_S256x1024 (ix2 h r) = Y (ix2 r h) :=
  transpose_apply [1, 0] Y transposes_S1024x256_p1_0_S256x1024 (ix2 h r) (ix2 r h) (fun b => by
    match b with | ⟨0, _⟩ => rfl | ⟨1, _⟩ => rfl)

/-- Adding the unit axis back to the scores: (0, p, r) reads (p, r). -/
theorem score_block_apply (Z : FVec Ideal S512x1024 .f32) (z : Fin 1) (p : Fin 512) (r : Fin 1024) :
    shapeCast S1x512x1024 Z shapeCasts_S512x1024_S1x512x1024 (ix3 z p r) = Z (ix2 p r) :=
  shapeCast_apply Z shapeCasts_S512x1024_S1x512x1024 (ix3 z p r) (ix2 p r) (by
    rw [Shape.rowMajor_val_two, Shape.rowMajor_val_three]
    show p.val * 1024 + r.val = (z.val * 512 + p.val) * 1024 + r.val
    have hz : z.val = 0 := by omega
    rw [hz]; simp)

/-- Adding the unit axis back to the keys: (0, p, h) reads (p, h). -/
theorem key_store_apply (X : Vec Ideal S1x512x256 .f32) (W : Vec Ideal S256x256 .f32) (z : Fin 1) (p : Fin 512) (h : Fin 256) :
    k0_pay2 (F := Ideal) X W (ix3 z p h) = k0_pay1 (F := Ideal) X W (ix2 p h) := by
  unfold k0_pay2
  exact shapeCast_apply (k0_pay1 (F := Ideal) X W) shapeCasts_S512x256_S1x512x256 (ix3 z p h) (ix2 p h) (by
    rw [Shape.rowMajor_val_two, Shape.rowMajor_val_three]
    show p.val * 256 + h.val = (z.val * 512 + p.val) * 256 + h.val
    have hz : z.val = 0 := by omega
    rw [hz]; simp)

/-! ## The two stored values at an index -/

/-- The rectified projection the body stores first (before its unit axis is added back), at (p, h). -/
theorem key_block_apply (X : Vec Ideal S1x512x256 .f32) (W : Vec Ideal S256x256 .f32) (p : Fin 512) (h : Fin 256) :
    k0_pay1 (F := Ideal) X W (ix2 p h) = max (∑ i : Fin 256, X (ix3 0 p i) * W (ix2 h i)) 0 := by
  unfold k0_pay1
  refine (maximumf_apply _ _ (ix2 p h)).trans ?_
  refine congrArg₂ max ((proj_apply _ _ p h).trans (Finset.sum_congr rfl fun i _ => ?_)) Ideal.ofBits_zero_f32
  refine congrArg₂ (· * ·)
    ((truncf_apply (φ := .f32) (ψ := .bf16) (shapeCast S512x256 X shapeCasts_S1x512x256_S512x256) bitsLt_bf16_f32 (ix2 p i)).trans
      (seq_rows_apply X p i)) ?_
  exact (wgt_transpose_apply (truncf .bf16 W bitsLt_bf16_f32) i h).trans
    (truncf_apply (φ := .f32) (ψ := .bf16) W bitsLt_bf16_f32 (ix2 h i))

/-- The scores the body stores second, at (0, p, r). -/
theorem val_block_apply (X : Vec Ideal S1x512x256 .f32) (W : Vec Ideal S256x256 .f32) (M : Vec Ideal S1x1024x256 .f32)
    (z : Fin 1) (p : Fin 512) (r : Fin 1024) :
    k0_pay3 (F := Ideal) X W M (ix3 z p r) = ∑ h : Fin 256, k0_pay1 (F := Ideal) X W (ix2 p h) * M (ix3 0 r h) := by
  unfold k0_pay3
  refine (score_block_apply _ z p r).trans ((score_apply _ _ p r).trans (Finset.sum_congr rfl fun h _ => ?_))
  refine congrArg₂ (· * ·)
    (truncf_apply (φ := .f32) (ψ := .bf16) (k0_pay1 (F := Ideal) X W) bitsLt_bf16_f32 (ix2 p h)) ?_
  exact (mem_transpose_apply (truncf .bf16 (shapeCast S1024x256 M shapeCasts_S1x1024x256_S1024x256) bitsLt_bf16_f32) h r).trans
    ((truncf_apply (φ := .f32) (ψ := .bf16) (shapeCast S1024x256 M shapeCasts_S1x1024x256_S1024x256) bitsLt_bf16_f32 (ix2 r h)).trans
      (mem_rows_apply M r h))

end Cert.KernelIdeal.Payload

end
-- ==== Proof.Stored.lean ====
/-
  What one grid point leaves in its two output blocks, at a block index, as a function of the three blocks the
  point was given. Each output block is written by one store that covers it, and each load reads its whole block,
  so the block left is the stored value itself:

    key block at (0, p, h) = max (sum over i of X[0, p, i] * W[h, i]) 0
    val block at (0, p, r) = sum over h of (max (sum over i of X[0, p, i] * W[h, i]) 0) * M[0, r, h].
-/
import proofs.«179822_j13563506721326_1_alg».proof.Proof.Gen.KernelIdeal.Frame
import proofs.«179822_j13563506721326_1_alg».proof.Proof.Payload

noncomputable section

open Idealize.ShloMosaic Idealize.ShloMosaic.ValueIdx
open scoped BigOperators

namespace Cert.KernelIdeal.Stored

open Cert.KernelIdeal Cert.KernelIdeal.Gen Cert.KernelIdeal.Payload

theorem zero3 : (![0, 0, 0] : Fin 3 → Nat) = fun _ => 0 := funext fun a => by fin_cases a <;> rfl
theorem zero2 : (![0, 0] : Fin 2 → Nat) = fun _ => 0 := funext fun a => by fin_cases a <;> rfl

/-- The key block a point leaves, at (z, p, h). -/
theorem key_out_apply (X : Vec Ideal S1x512x256 .f32) (M : Vec Ideal S1x1024x256 .f32) (W : Vec Ideal S256x256 .f32)
    (z : Fin 1) (p : Fin 512) (h : Fin 256) :
    out0_3 (F := Ideal) X M W (ix3 z p h) = max (∑ i : Fin 256, X (ix3 0 p i) * W (ix2 h i)) 0 := by
  unfold out0_3
  rw [View.canon_unit_zero zero3]
  simp only [View.ld_unit_zero (S := S1x512x256) zero3, View.ld_unit_zero (S := S256x256) zero2]
  exact (key_store_apply X W z p h).trans (key_block_apply X W p h)

/-- The score block a point leaves, at (z, p, r). -/
theorem val_out_apply (X : Vec Ideal S1x512x256 .f32) (M : Vec Ideal S1x1024x256 .f32) (W : Vec Ideal S256x256 .f32)
    (z : Fin 1) (p : Fin 512) (r : Fin 1024) :
    out0_4 (F := Ideal) X M W (ix3 z p r)
      = ∑ h : Fin 256, max (∑ i : Fin 256, X (ix3 0 p i) * W (ix2 h i)) 0 * M (ix3 0 r h) := by
  unfold out0_4
  rw [View.canon_unit_zero zero3]
  simp only [View.ld_unit_zero (S := S1x512x256) zero3, View.ld_unit_zero (S := S256x256) zero2,
    View.ld_unit_zero (S := S1x1024x256) zero3]
  refine (val_block_apply X W M z p r).trans (Finset.sum_congr rfl fun h _ => ?_)
  exact congrArg (fun v => v * M (ix3 0 r h)) (key_block_apply X W p h)

end Cert.KernelIdeal.Stored

end
-- ==== Proof.Spec.lean ====
/-
  The mathematics of the certificate, free of both programs.

  From a batch of sequences x : [8, 2048, 256], a weight W : [256, 256] and a batch of memories
  mem : [8, 1024, 256], over the extended reals:

    key[b, s, h] = max (sum over i of x[b, s, i] * W[h, i]) 0        (a rectified projection of x by the rows of W)
    val[b, s, m] = sum over h of key[b, s, h] * mem[b, m, h]         (each key scored against every memory row of its batch)

  Both sums run over the same 256 terms in the same order on the two sides of the certificate, so no law of the
  extended reals beyond equality of the summands is used, and the inputs' finiteness is never opened.
-/
import Idealize.ShloMosaic.PureOps.Ideal
import Idealize.ShloMosaic.Lib.ValueIdx

noncomputable section

open Idealize.ShloMosaic Idealize.ShloMosaic.ValueIdx
open scoped BigOperators

namespace Cert.KeyMemory

/-- The sequences' shape [8, 2048, 256]; the keys have it too. -/
abbrev SeqS : Shape := ⟨3, ![8, 2048, 256]⟩
/-- The memories' shape [8, 1024, 256]. -/
abbrev MemS : Shape := ⟨3, ![8, 1024, 256]⟩
/-- The weight's shape [256, 256]. -/
abbrev WgtS : Shape := ⟨2, ![256, 256]⟩
/-- The scores' shape [8, 2048, 1024]. -/
abbrev ValS : Shape := ⟨3, ![8, 2048, 1024]⟩

/-- One key: the projection of row (b, s) of x on row h of W, rectified. -/
def keyAt (x : SeqS.Idx → EReal) (w : WgtS.Idx → EReal) (b : Fin 8) (s : Fin 2048) (h : Fin 256) : EReal :=
  max (∑ i : Fin 256, x (ix3 b s i) * w (ix2 h i)) 0

/-- The key array, index by index. -/
def keys (x : SeqS.Idx → EReal) (w : WgtS.Idx → EReal) : SeqS.Idx → EReal :=
  fun j => keyAt x w (j 0) (j 1) (j 2)

/-- The score array, index by index: key (b, s, ·) against memory row (b, m, ·). -/
def vals (x : SeqS.Idx → EReal) (mem : MemS.Idx → EReal) (w : WgtS.Idx → EReal) : ValS.Idx → EReal :=
  fun j => ∑ h : Fin 256, keyAt x w (j 0) (j 1) h * mem (ix3 (j 0) (j 2) h)

end Cert.KeyMemory

end
-- ==== Proof.Arrays.lean ====
/-
  From blocks to arrays. Grid point t = (b, q) of the 8 x 4 grid is given rows 512 q ... 512 q + 511 of sequence b,
  the whole of memory b and the whole weight, and writes back rows 512 q ... 512 q + 511 of batch b of both results.
  What it writes back is that block of `keys`, respectively of `vals`, of the argument arrays: an element of a block
  sits in its array at block index times block size plus its own coordinate, on every axis, and the input blocks sit
  at the output block's batch and rows. The 32 output blocks tile each result array (the point covering row s of batch b
  is (b, s / 512)), so after the run the first result is `keys` and the second is `vals` of the arguments.
-/
import proofs.«179822_j13563506721326_1_alg».proof.Proof.Gen.KernelIdeal.Value
import proofs.«179822_j13563506721326_1_alg».proof.Proof.Stored
import proofs.«179822_j13563506721326_1_alg».proof.Proof.Spec

noncomputable section

open Idealize.ShloMosaic Idealize.ShloMosaic.TcCoe Idealize.ShloMosaic.ValueIdx Idealize.SL.Sem
open Idealize.ShloMosaic.Pipeline (Dat)
open scoped BigOperators

namespace Cert.KernelIdeal.Arrays

open Cert.KernelIdeal Cert.KernelIdeal.Gen Cert.KernelIdeal.Value Cert.KernelIdeal.Stored Cert.KeyMemory

variable (m : (ℓ : Loc nD τ sig) → Buf (Elt Ideal) ℓ) (ρ : Dev nD → PrngReg)

/-! ## The block indices over the grid -/

/-- The printed index maps, decided over the 32 points: the sequence block and both output blocks sit at the same
    batch and row block, the memory block at that batch, the weight block and every last axis at zero. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (2 : Fin 3) = 0
    ∧ win0_4.index t (0 : Fin 3) = win0_3.index t (0 : Fin 3)
    ∧ win0_4.index t (1 : Fin 3) = win0_3.index t (1 : Fin 3)
    ∧ win0_4.index t (2 : Fin 3) = 0 :=
  (by decide +kernel : ∀ t : Fin grid0.N, _)

/-- Every (batch, row block) is some point's key block index, -/
theorem key_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- and some point's score block index. -/
theorem val_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-! ## The input blocks as parts of the argument arrays -/

/-- The sequence block at point `t`, at `y`, is the sequences at block index times block size plus `y`. -/
theorem seq_blk_apply (c : Dev nD) (t : Fin cfg0.N) (y : S1x512x256.Idx) (k : S8x2048x256.Idx)
    (h0 : (k 0).val = win0_0.index t (0 : Fin 3) * 1 + (y 0).val)
    (h1 : (k 1).val = win0_0.index t (1 : Fin 3) * 512 + (y 1).val)
    (h2 : (k 2).val = win0_0.index t (2 : Fin 3) * 256 + (y 2).val) :
    (iblk m c 0 t : Vec Ideal S1x512x256 .f32) y = (m ((c : Thread nD τ).loc main_arg0) : S8x2048x256.Idx → EReal) k := by
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (y 0).val = (k 0).val; rw [h0]; omega
  | ⟨1, _⟩ => show win0_0.index t (1 : Fin 3) * 512 + 1 * (y 1).val = (k 1).val; rw [h1]; omega
  | ⟨2, _⟩ => show win0_0.index t (2 : Fin 3) * 256 + 1 * (y 2).val = (k 2).val; rw [h2]; omega

/-- The memory block at point `t`, at `y`, is the memories at block index times block size plus `y`. -/
theorem mem_blk_apply (c : Dev nD) (t : Fin cfg0.N) (y : S1x1024x256.Idx) (k : S8x1024x256.Idx)
    (h0 : (k 0).val = win0_1.index t (0 : Fin 3) * 1 + (y 0).val)
    (h1 : (k 1).val = win0_1.index t (1 : Fin 3) * 1024 + (y 1).val)
    (h2 : (k 2).val = win0_1.index t (2 : Fin 3) * 256 + (y 2).val) :
    (iblk m c 1 t : Vec Ideal S1x1024x256 .f32) y = (m ((c : Thread nD τ).loc main_arg1) : S8x1024x256.Idx → EReal) k := by
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (y 0).val = (k 0).val; rw [h0]; omega
  | ⟨1, _⟩ => show win0_1.index t (1 : Fin 3) * 1024 + 1 * (y 1).val = (k 1).val; rw [h1]; omega
  | ⟨2, _⟩ => show win0_1.index t (2 : Fin 3) * 256 + 1 * (y 2).val = (k 2).val; rw [h2]; omega

/-- The weight block at point `t`, at `y`, is the weight at block index times block size plus `y`. -/
theorem wgt_blk_apply (c : Dev nD) (t : Fin cfg0.N) (y : S256x256.Idx) (k : S256x256.Idx)
    (h0 : (k 0).val = win0_2.index t (0 : Fin 2) * 256 + (y 0).val)
    (h1 : (k 1).val = win0_2.index t (1 : Fin 2) * 256 + (y 1).val) :
    (iblk m c 2 t : Vec Ideal S256x256 .f32) y = (m ((c : Thread nD τ).loc main_arg2) : S256x256.Idx → EReal) k := by
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * (y 0).val = (k 0).val; rw [h0]; omega
  | ⟨1, _⟩ => show win0_2.index t (1 : Fin 2) * 256 + 1 * (y 1).val = (k 1).val; rw [h1]; omega

/-! ## What a point writes back is its block of the specification -/

/-- One key of point `t`'s block, at block coordinates (z, p, h), is the specification's key at the array
    coordinates (b, s, g) the block's element sits at. -/
theorem key_point (c : Dev nD) (t : Fin cfg0.N) (z : Fin 1) (p : Fin 512) (h : Fin 256) (b : Fin 8) (s : Fin 2048) (g : Fin 256)
    (h0 : b.val = win0_3.index t (0 : Fin 3) * 1 + 1 * z.val)
    (h1 : s.val = win0_3.index t (1 : Fin 3) * 512 + 1 * p.val)
    (h2 : g.val = win0_3.index t (2 : Fin 3) * 256 + 1 * h.val) :
    out0_3 (F := Ideal) (iblk m c 0 t) (iblk m c 1 t) (iblk m c 2 t) (ix3 z p h)
      = keys (m ((c : Thread nD τ).loc main_arg0)) (m ((c : Thread nD τ).loc main_arg2)) (ix3 b s g) := by
  obtain ⟨e00, e01, e02, e10, e11, e12, e20, e21, e32, e40, e41, e42⟩ := idx_facts t
  have hz : z.val = 0 := by omega
  refine (key_out_apply (iblk m c 0 t) (iblk m c 1 t) (iblk m c 2 t) z p h).trans ?_
  show _ = keyAt _ _ b s g
  unfold keyAt
  refine congrArg (fun v => max v 0) (Finset.sum_congr rfl fun i _ => ?_)
  refine congrArg₂ (· * ·) ?_ ?_
  · exact seq_blk_apply m c t (ix3 0 p i) (ix3 b s i)
      (by show b.val = win0_0.index t (0 : Fin 3) * 1 + 0; omega)
      (by show s.val = win0_0.index t (1 : Fin 3) * 512 + p.val; omega)
      (by show i.val = win0_0.index t (2 : Fin 3) * 256 + i.val; omega)
  · exact wgt_blk_apply m c t (ix2 h i) (ix2 g i)
      (by show g.val = win0_2.index t (0 : Fin 2) * 256 + h.val; omega)
      (by show i.val = win0_2.index t (1 : Fin 2) * 256 + i.val; omega)

/-- One score of point `t`'s block, at block coordinates (z, p, r), is the specification's score at the array
    coordinates (b, s, q) the block's element sits at. -/
theorem val_point (c : Dev nD) (t : Fin cfg0.N) (z : Fin 1) (p : Fin 512) (r : Fin 1024) (b : Fin 8) (s : Fin 2048) (q : Fin 1024)
    (h0 : b.val = win0_4.index t (0 : Fin 3) * 1 + 1 * z.val)
    (h1 : s.val = win0_4.index t (1 : Fin 3) * 512 + 1 * p.val)
    (h2 : q.val = win0_4.index t (2 : Fin 3) * 1024 + 1 * r.val) :
    out0_4 (F := Ideal) (iblk m c 0 t) (iblk m c 1 t) (iblk m c 2 t) (ix3 z p r)
      = vals (m ((c : Thread nD τ).loc main_arg0)) (m ((c : Thread nD τ).loc main_arg1)) (m ((c : Thread nD τ).loc main_arg2)) (ix3 b s q) := by
  obtain ⟨e00, e01, e02, e10, e11, e12, e20, e21, e32, e40, e41, e42⟩ := idx_facts t
  have hz : z.val = 0 := by omega
  refine (val_out_apply (iblk m c 0 t) (iblk m c 1 t) (iblk m c 2 t) z p r).trans ?_
  show _ = ∑ h : Fin 256, keyAt _ _ b s h * _
  unfold keyAt
  refine Finset.sum_congr rfl fun h _ => ?_
  refine congrArg₂ (· * ·) (congrArg (fun v => max v 0) (Finset.sum_congr rfl fun i _ => congrArg₂ (· * ·) ?_ ?_)) ?_
  · exact seq_blk_apply m c t (ix3 0 p i) (ix3 b s i)
      (by show b.val = win0_0.index t (0 : Fin 3) * 1 + 0; omega)
      (by show s.val = win0_0.index t (1 : Fin 3) * 512 + p.val; omega)
      (by show i.val = win0_0.index t (2 : Fin 3) * 256 + i.val; omega)
  · exact wgt_blk_apply m c t (ix2 h i) (ix2 h i)
      (by show h.val = win0_2.index t (0 : Fin 2) * 256 + h.val; omega)
      (by show i.val = win0_2.index t (1 : Fin 2) * 256 + i.val; omega)
  · exact mem_blk_apply m c t (ix3 0 r h) (ix3 b q h)
      (by show b.val = win0_1.index t (0 : Fin 3) * 1 + 0; omega)
      (by show q.val = win0_1.index t (1 : Fin 3) * 1024 + r.val; omega)
      (by show h.val = win0_1.index t (2 : Fin 3) * 256 + h.val; omega)

/-- WHAT POINT `t` WRITES BACK to the first result is block `t` of `keys` of the arguments. -/
theorem key_flushed_eq (c : Dev nD) (t : Fin cfg0.N) :
    (dats m 0 c).flushed 3 t = ((cfg0.win 3).blk t).view.read (Elt Ideal)
      (keys (m ((c : Thread nD τ).loc main_arg0)) (m ((c : Thread nD τ).loc main_arg2))) := by
  rw [flushed3]
  funext j
  show out0_3 (F := Ideal) (iblk m c 0 t) (iblk m c 1 t) (iblk m c 2 t) j
    = keys (m ((c : Thread nD τ).loc main_arg0)) (m ((c : Thread nD τ).loc main_arg2)) (((cfg0.win 3).blk t).view.emb j)
  refine ((congrArg (out0_3 (F := Ideal) (iblk m c 0 t) (iblk m c 1 t) (iblk m c 2 t)) (eq_ix3 (n0 := 1) (n1 := 512) (n2 := 256) j)).trans ?_).trans
    (congrArg (keys (m ((c : Thread nD τ).loc main_arg0)) (m ((c : Thread nD τ).loc main_arg2)))
      (eq_ix3 (n0 := 8) (n1 := 2048) (n2 := 256) (((cfg0.win 3).blk t).view.emb j))).symm
  exact key_point m c t (j 0) (j 1) (j 2) _ _ _ rfl rfl rfl

/-- WHAT POINT `t` WRITES BACK to the second result is block `t` of `vals` of the arguments. -/
theorem val_flushed_eq (c : Dev nD) (t : Fin cfg0.N) :
    (dats m 0 c).flushed 4 t = ((cfg0.win 4).blk t).view.read (Elt Ideal)
      (vals (m ((c : Thread nD τ).loc main_arg0)) (m ((c : Thread nD τ).loc main_arg1)) (m ((c : Thread nD τ).loc main_arg2))) := by
  rw [flushed4]
  funext j
  show out0_4 (F := Ideal) (iblk m c 0 t) (iblk m c 1 t) (iblk m c 2 t) j
    = vals (m ((c : Thread nD τ).loc main_arg0)) (m ((c : Thread nD τ).loc main_arg1)) (m ((c : Thread nD τ).loc main_arg2)) (((cfg0.win 4).blk t).view.emb j)
  refine ((congrArg (out0_4 (F := Ideal) (iblk m c 0 t) (iblk m c 1 t) (iblk m c 2 t)) (eq_ix3 (n0 := 1) (n1 := 512) (n2 := 1024) j)).trans ?_).trans
    (congrArg (vals (m ((c : Thread nD τ).loc main_arg0)) (m ((c : Thread nD τ).loc main_arg1)) (m ((c : Thread nD τ).loc main_arg2)))
      (eq_ix3 (n0 := 8) (n1 := 2048) (n2 := 1024) (((cfg0.win 4).blk t).view.emb j))).symm
  exact val_point m c t (j 0) (j 1) (j 2) _ _ _ rfl rfl rfl

/-! ## The blocks tile the result arrays -/

/-- An index of the first result is in point `t`'s block iff each coordinate is in the block's range on its axis. -/
theorem key_mem_blk (t : Fin cfg0.N) (i : S8x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v0_0).slice (win0_3.rect t)).set ↔ _
  rw [View.set_slice_whole, Rect.mem_set_unit]
  exact Iff.rfl

/-- The same for the second result. -/
theorem val_mem_blk (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0_1).slice (win0_4.rect t)).set ↔ _
  rw [View.set_slice_whole, Rect.mem_set_unit]
  exact Iff.rfl

/-- Every index of the first result is in the block of the point at its batch and row block. -/
theorem key_cover (i : S8x2048x256.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ := key_onto ⟨(i 0).val, by omega⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [key_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- Every index of the second result is in the block of the point at its batch and row block. -/
theorem val_cover (i : S8x2048x1024.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht⟩ := val_onto ⟨(i 0).val, by omega⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [val_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-! ## The result arrays after the run -/

/-- The first result array ends holding `keys` of the arguments. -/
theorem key_final (c : Dev nD) : (dats m 0 c).arrAt 3 cfg0.N
    = keys (m ((c : Thread nD τ).loc main_arg0)) (m ((c : Thread nD τ).loc main_arg2)) :=
  (dats m 0 c).arrAt_eq_of_cover 3 (keys (m ((c : Thread nD τ).loc main_arg0)) (m ((c : Thread nD τ).loc main_arg2)))
    (fun t _ => key_flushed_eq m c t) (fun i => key_cover i)

/-- The second result array ends holding `vals` of the arguments. -/
theorem val_final (c : Dev nD) : (dats m 0 c).arrAt 4 cfg0.N
    = vals (m ((c : Thread nD τ).loc main_arg0)) (m ((c : Thread nD τ).loc main_arg1)) (m ((c : Thread nD τ).loc main_arg2)) :=
  (dats m 0 c).arrAt_eq_of_cover 4
    (vals (m ((c : Thread nD τ).loc main_arg0)) (m ((c : Thread nD τ).loc main_arg1)) (m ((c : Thread nD τ).loc main_arg2)))
    (fun t _ => val_flushed_eq m c t) (fun i => val_cover i)

/-- The kernel's run, read: the two results at the specification of the arguments, the arguments unchanged. -/
theorem run : θ_run defs (onTc (τ := τ) (main (F := Ideal))) ⟨m, fun _ => 0, ρ⟩ fun r => ∀ c : Dev nD,
      r.2.mem ((c : Thread nD τ).loc main_v0_0) = keys (m ((c : Thread nD τ).loc main_arg0)) (m ((c : Thread nD τ).loc main_arg2))
      ∧ r.2.mem ((c : Thread nD τ).loc main_v0_1)
          = vals (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (key_final m c), (h c).2.1.trans (val_final m c), (h c).2.2⟩)
    (Value.run_blocks m ρ)

end Cert.KernelIdeal.Arrays

end
-- ==== Proof.RefSpec.lean ====
/-
  The reference computes the specification: its rectified product of x with the rows of W is `keys`, and its batched
  product of that with the memories is `vals`, index by index. Each product read at an index is a sum over the one
  contracted coordinate; the summands are the specification's, at the same indices.
-/
import proofs.«179822_j13563506721326_1_alg».proof.Proof.Gen.ReferenceIdeal.Read
import proofs.«179822_j13563506721326_1_alg».proof.Proof.Spec

noncomputable section

open Idealize.ShloMosaic Idealize.ShloMosaic.ValueIdx
open scoped BigOperators

namespace Cert.ReferenceIdeal.Spec

open Cert.ReferenceIdeal Cert.ReferenceIdeal.Read Cert.KeyMemory

/-- The left operand's index of the first product: (b, s, i). -/
theorem lidx_keys (j : S8x2048x256.Idx) (k : Fin 256) : lidx_main_v0 j k = ix3 (j 0) (j 1) k := by
  funext a; match a with | ⟨0, _⟩ => rfl | ⟨1, _⟩ => rfl | ⟨2, _⟩ => rfl

/-- The right operand's index of the first product: (h, i). -/
theorem ridx_keys (j : S8x2048x256.Idx) (k : Fin 256) : ridx_main_v0 j k = ix2 (j 2) k := by
  funext a; match a with | ⟨0, _⟩ => rfl | ⟨1, _⟩ => rfl

/-- The right operand's index of the second product: (b, m, h). -/
theorem ridx_vals (j : S8x2048x1024.Idx) (k : Fin 256) : ridx_main_v2 j k = ix3 (j 0) (j 2) k := by
  funext a; match a with | ⟨0, _⟩ => rfl | ⟨1, _⟩ => rfl | ⟨2, _⟩ => rfl

/-- The reference's first result is the key array. -/
theorem keys_eq (x0 : FVec Ideal S8x2048x256 .f32) (x2 : FVec Ideal S256x256 .f32) :
    val_main_v1 (F := Ideal) x0 x2 = keys x0 x2 := by
  funext j
  rw [val_main_v1_apply, val_main_v0_apply, val_main_call0_v0_apply, val_main_call0_cst_apply]
  show max (∑ k : Fin 256, x0 (lidx_main_v0 j k) * x2 (ridx_main_v0 j k)) (Ideal.ofBits .f32 0x00000000#32) = _
  rw [Ideal.ofBits_zero_f32]
  unfold keys keyAt
  refine congrArg (fun z => max z 0) (Finset.sum_congr rfl fun k _ => ?_)
  rw [lidx_keys, ridx_keys]
  rfl

/-- The reference's second result is the score array. -/
theorem vals_eq (x0 : FVec Ideal S8x2048x256 .f32) (x1 : FVec Ideal S8x1024x256 .f32) (x2 : FVec Ideal S256x256 .f32) :
    val_main_v2 (F := Ideal) x0 x1 x2 = vals x0 x1 x2 := by
  funext j
  rw [val_main_v2_apply, keys_eq]
  unfold vals
  refine Finset.sum_congr rfl fun k _ => ?_
  rw [ridx_vals]
  rfl

end Cert.ReferenceIdeal.Spec

end
-- ==== Proof.lean ====
/-
  The kernel and its reference compute, over the extended reals, the same two arrays of the same arguments:

    key[b, s, h] = max (sum over i of x[b, s, i] * W[h, i]) 0
    val[b, s, m] = sum over h of key[b, s, h] * mem[b, m, h]

  (Proof/Spec.lean). The kernel computes them block by block on an 8 x 4 grid, rows 512 q ... 512 q + 511 of batch b
  at point (b, q), with two matrix products into zero accumulators whose operands it casts to a narrower float format
  and transposes, neither of which changes a value over the extended reals (Proof/Payload.lean, Proof/Stored.lean); the
  blocks tile both results (Proof/Arrays.lean). The reference computes them with two whole products
  (Proof/RefSpec.lean). On both sides each sum runs over the same 256 terms, so nothing is asked of the inputs beyond
  what the programs themselves ask, and the idealization rewrote no operation.
-/
import proofs.«179822_j13563506721326_1_alg».proof.Defs
import proofs.«179822_j13563506721326_1_alg».proof.Proof.Gen.Kernel
import proofs.«179822_j13563506721326_1_alg».proof.Proof.Gen.Kernel.Skeleton
import proofs.«179822_j13563506721326_1_alg».proof.Proof.Gen.Kernel.Launch
import proofs.«179822_j13563506721326_1_alg».proof.Proof.Gen.Kernel.Points
import proofs.«179822_j13563506721326_1_alg».proof.Proof.Gen.Kernel.Frame
import proofs.«179822_j13563506721326_1_alg».proof.Proof.Gen.KernelIdeal
import proofs.«179822_j13563506721326_1_alg».proof.Proof.Gen.KernelIdeal.Skeleton
import proofs.«179822_j13563506721326_1_alg».proof.Proof.Gen.KernelIdeal.Launch
import proofs.«179822_j13563506721326_1_alg».proof.Proof.Gen.KernelIdeal.Points
import proofs.«179822_j13563506721326_1_alg».proof.Proof.Gen.KernelIdeal.Frame
import proofs.«179822_j13563506721326_1_alg».proof.Proof.Gen.ReferenceIdeal
import proofs.«179822_j13563506721326_1_alg».proof.Proof.Gen.KernelIdeal.Value
import proofs.«179822_j13563506721326_1_alg».proof.Proof.Gen.ReferenceIdeal.Run
import proofs.«179822_j13563506721326_1_alg».proof.Proof.Gen.ReferenceIdeal.Read
import proofs.«179822_j13563506721326_1_alg».proof.Proof.Gen.Pre_finite_inputs
import proofs.«179822_j13563506721326_1_alg».proof.Proof.Arrays
import proofs.«179822_j13563506721326_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From arguments that agree, the kernel ends with `keys` and `vals` of its arguments (Proof/Arrays.lean) and the
    reference with `keys` and `vals` of its own (Proof/RefSpec.lean): the same arrays. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v1_eq, Cert.ReferenceIdeal.Spec.keys_eq, (hagree c).1, (hagree c).2.2]
  · rw [Cert.ReferenceIdeal.Read.val_main_v2_eq, Cert.ReferenceIdeal.Spec.vals_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
